-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x128 .f32) (main_arg1 : FVec F S128x64 .f32) (main_arg2 : FVec F S128x64 .f32) (main_arg3 : FVec F S64 .f32) (main_arg4 : IVec S1600000 32) (main_arg5 : IVec S1600000 32) (main_arg6 : IVec S1600000 32) (main_arg7 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x128 : Shape := ⟨2, ![100000, 128]⟩
abbrev S128x64 : Shape := ⟨2, ![128, 64]⟩
abbrev S64 : Shape := ⟨1, ![64]⟩
abbrev S1600000 : Shape := ⟨1, ![1600000]⟩
abbrev S100000x64 : Shape := ⟨2, ![100000, 64]⟩
abbrev S5000x128 : Shape := ⟨2, ![5000, 128]⟩
abbrev S5000x64 : Shape := ⟨2, ![5000, 64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S5000x1 : Shape := ⟨2, ![5000, 1]⟩
abbrev S8000x64 : Shape := ⟨2, ![8000, 64]⟩
abbrev S8000x1 : Shape := ⟨2, ![8000, 1]⟩
abbrev S8000 : Shape := ⟨1, ![8000]⟩

abbrev nBuf : Space → Nat
  | .hbm => 70
  | .vmem => 29
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S128x64, .f32⟩
  | .hbm, ⟨3, _⟩ => ⟨S64, .f32⟩
  | .hbm, ⟨4, _⟩ => ⟨S1600000, .i32⟩
  | .hbm, ⟨5, _⟩ => ⟨S1600000, .i32⟩
  | .hbm, ⟨6, _⟩ => ⟨S1600000, .i32⟩
  | .hbm, ⟨7, _⟩ => ⟨S1600000, .i32⟩
  | .hbm, ⟨8, _⟩ => ⟨S100000x64, .f32⟩
  | .hbm, ⟨9, _⟩ => ⟨S100000x64, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S100000x1, .f32⟩
  | .hbm, ⟨30, _⟩ => ⟨S1x64, .f32⟩
  | .hbm, ⟨31, _⟩ => ⟨S100000x64, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x64, .f32⟩
  | .hbm, ⟨68, _⟩ => ⟨S1600000x1, .f32⟩
  | .hbm, ⟨69, _⟩ => ⟨S1600000x1, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S128x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x1, .f32⟩
  | .local _ .vmem, ⟨13, _⟩ => ⟨S5000x1, .f32⟩
  | .local _ .vmem, ⟨14, _⟩ => ⟨S1x64, .f32⟩
  | .local _ .vmem, ⟨15, _⟩ => ⟨S5000x64, .f32⟩
  | .local _ .vmem, ⟨16, _⟩ => ⟨S5000x64, .f32⟩
  | .local _ .vmem, ⟨17, _⟩ => ⟨S8000x64, .f32⟩
  | .local _ .vmem, ⟨18, _⟩ => ⟨S8000x64, .f32⟩
  | .local _ .vmem, ⟨19, _⟩ => ⟨S8000x64, .f32⟩
  | .local _ .vmem, ⟨20, _⟩ => ⟨S8000x64, .f32⟩
  | .local _ .vmem, ⟨21, _⟩ => ⟨S8000x64, .f32⟩
  | .local _ .vmem, ⟨22, _⟩ => ⟨S8000x64, .f32⟩
  | .local _ .vmem, ⟨23, _⟩ => ⟨S8000x64, .f32⟩
  | .local _ .vmem, ⟨24, _⟩ => ⟨S8000x64, .f32⟩
  | .local _ .vmem, ⟨25, _⟩ => ⟨S8000x1, .f32⟩
  | .local _ .vmem, ⟨26, _⟩ => ⟨S8000x1, .f32⟩
  | .local _ .vmem, ⟨27, _⟩ => ⟨S8000x1, .f32⟩
  | .local _ .vmem, ⟨28, _⟩ => ⟨S8000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_9 : Ref sig .tc := ⟨.hbm, 59, rfl⟩
abbrev main_v39 : Ref sig .tc := ⟨.hbm, 60, rfl⟩
abbrev main_v40 : Ref sig .tc := ⟨.hbm, 61, rfl⟩
abbrev main_c_10 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46_0 : Ref sig .tc := ⟨.hbm, 68, rfl⟩
abbrev main_v46_1 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg5_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26
abbrev cc2_sem5_0 : DmaSem sig := 27
abbrev cc2_sem5_1 : DmaSem sig := 28

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S8000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S8000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  reduces_S8000x64_S8000 : S8000x64.Reduces [1] S8000
  shapeCasts_S8000_S8000x1 : S8000.ShapeCasts S8000x1
  inb_S8000x1_S8000x1_0_0 : ∀ a, (![0, 0] : Fin 2 → Nat) a + S8000x1.size a ≤ S8000x1.size a
  h_S8000x1 : 0 < S8000x1.numel
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S1600000x64.size a
  hwx2_0 : ∀ i : grid2.Coords, EltTy.bits .f32 = 32 ∨ (Rect.block (s := S1600000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S1600000x64.size a
  hwx2_1 : ∀ i : grid2.Coords, EltTy.bits .f32 = 32 ∨ (Rect.block (s := S1600000x64) S8000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x64.size a ≤ S1600000x64.size a
  hwx2_2 : ∀ i : grid2.Coords, EltTy.bits .f32 = 32 ∨ (Rect.block (s := S1600000x64) S8000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x64.size a ≤ S1600000x64.size a
  hwx2_3 : ∀ i : grid2.Coords, EltTy.bits .f32 = 32 ∨ (Rect.block (s := S1600000x64) S8000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8000x1.size a ≤ S1600000x1.size a
  hwx2_4 : ∀ i : grid2.Coords, EltTy.bits .f32 = 32 ∨ (Rect.block (s := S1600000x1) S8000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8000x1.size a ≤ S1600000x1.size a
  hwx2_5 : ∀ i : grid2.Coords, EltTy.bits .f32 = 32 ∨ (Rect.block (s := S1600000x1) S8000x1.size (cc2_transform_5 i) (hinb2_5 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v24) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S8000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v45) S8000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v46_0) S8000x1.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v46_1) S8000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S1600000 : Shape := ⟨1, ![1600000]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 86
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S128x64, .f32⟩
  | .hbm, ⟨3, _⟩ => ⟨S64, .f32⟩
  | .hbm, ⟨4, _⟩ => ⟨S1600000, .i32⟩
  | .hbm, ⟨5, _⟩ => ⟨S1600000, .i32⟩
  | .hbm, ⟨6, _⟩ => ⟨S1600000, .i32⟩
  | .hbm, ⟨7, _⟩ => ⟨S1600000, .i32⟩
  | .hbm, ⟨8, _⟩ => ⟨S100000x64, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S1x64, .f32⟩
  | .hbm, ⟨37, _⟩ => ⟨S100000x64, .f32⟩
  | .hbm, ⟨38, _⟩ => ⟨S100000x64, .f32⟩
  | .hbm, ⟨39, _⟩ => ⟨S_, .f32⟩
  | .hbm, ⟨40, _⟩ => ⟨S100000x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x64, .f32⟩
  | .hbm, ⟨60, _⟩ => ⟨S1600000x64, .f32⟩
  | .hbm, ⟨61, _⟩ => ⟨S_, .f32⟩
  | .hbm, ⟨62, _⟩ => ⟨S1600000, .f32⟩
  | .hbm, ⟨63, _⟩ => ⟨S1600000x1, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x64, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x64, .f32⟩
  | .hbm, ⟨82, _⟩ => ⟨S1600000x64, .f32⟩
  | .hbm, ⟨83, _⟩ => ⟨S_, .f32⟩
  | .hbm, ⟨84, _⟩ => ⟨S1600000, .f32⟩
  | .hbm, ⟨85, _⟩ => ⟨S1600000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_cst : Ref sig .tc := ⟨.hbm, 39, rfl⟩
abbrev main_call0_v0 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_c_9 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_c_12 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S1600000x64_S1600000_d1 : S1600000x64.ReducesTo [1] S1600000
  h_S_ : 0 < S_.numel
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.LibPlainMatmul.lean ====
/-
  The product of an M × K matrix by a K × N matrix read at one element, for the vector unit's product accumulated into
  a zero matrix: row e, column j is the sum over k of the left matrix at (e, k) times the right matrix at (k, j). At
  the ideal values.
-/
import Idealize.ShloMosaic.PureOps.Ideal.Laws
import Idealize.ShloMosaic.Lib.ValueIdx
import Idealize.ShloMosaic.Lib.KernelVsHost
import Idealize.ShloMosaic.Lib.StackMember

noncomputable section

open Idealize.ShloMosaic Idealize.ShloMosaic.ValueIdx

namespace Cert.LibPlainMatmul

/-- The product accumulated into a zero matrix, at row e and column j. -/
theorem matmul_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    matmul (DotDims.plain M K N) prec l r (constant (⟨2, ![M, N]⟩ : Shape) .f32 0x00000000#32) (ix2 e j)
      = ∑ k : Fin K, l (ix2 e k) * r (ix2 k j) := by
  rw [matmul_zero_eq_dotGeneral]
  exact StackMember.dotGeneral_plain_apply prec l r e j

/-- The host's product, at row e and column j. -/
theorem dotGeneral_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    Host.dotGeneral (DotDims.plain M K N) prec l r (ix2 e j) = ∑ k : Fin K, l (ix2 e k) * r (ix2 k j) :=
  StackMember.dotGeneral_plain_apply prec l r e j

end Cert.LibPlainMatmul

end
-- ==== Proof.Region0.lean ====
/-
  The first launch: node features times each of the two weight matrices, 5000 rows of nodes per grid point.

  Each grid point t reads rows 5000·t … 5000·t + 4999 of the feature matrix and the whole weight matrix, and writes
  the product of the two into the same rows of the output. Row n, column j of a product depends only on row n of the
  features, so the row blocks of the per-point products are the row blocks of the one whole product, and the twenty
  blocks tile the 100000 rows. Hence each output array ends as the whole matrix product.
-/
import proofs.«122616_j54760833024622_1_alg».proof.Proof.KernelIdealFrameP
import proofs.«122616_j54760833024622_1_alg».proof.Proof.LibPlainMatmul
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.KernelIdeal.GenP

variable (V : (c : Dev nD) → (b : Ref sig .tc) → Buf (Elt Ideal) ((c : Thread nD τ).loc b))

/-- The product of the node features with a weight matrix: entry (n, j) is the sum over k of x[n, k] · w[k, j]. -/
def prod (x : FVec Ideal S100000x128 .f32) (w : FVec Ideal S128x64 .f32) : FVec Ideal S100000x64 .f32 :=
  Host.dotGeneral (F := Ideal) (DotDims.plain 100000 128 64) none x w

theorem hz : (![0, 0] : Fin 2 → Nat) = fun _ => 0 := funext fun a => by fin_cases a <;> rfl

/-- Where each window's block sits at grid point t: the feature rows and both outputs move with t, the weights stay. -/
theorem idx_facts : ∀ t : Fin cfg0.N, t.val < 20
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row p of a block's product is row P of the whole product when row p of the block is row P of the features:
    both are the same sum over the 128 input features. -/
theorem blockProd_at (X : FVec Ideal S100000x128 .f32) (W : FVec Ideal S128x64 .f32)
    (xb : FVec Ideal S5000x128 .f32) (wb : FVec Ideal S128x64 .f32) (p : Fin 5000) (q : Fin 64) (P : Fin 100000)
    (hx : ∀ k : Fin 128, xb (ix2 p k) = X (ix2 P k)) (hw : wb = W) :
    matmul (F := Ideal) (DotDims.plain 5000 128 64) none xb wb (constant (⟨2, ![5000, 64]⟩ : Shape) .f32 0x00000000#32) (ix2 p q)
      = prod X W (ix2 P q) := by
  subst hw
  unfold prod
  rw [Cert.LibPlainMatmul.matmul_plain_apply, Cert.LibPlainMatmul.dotGeneral_plain_apply]
  exact Finset.sum_congr rfl fun k _ => by rw [hx k]

theorem pay2_eq (xb : FVec Ideal S5000x128 .f32) (wb : FVec Ideal S128x64 .f32) :
    k0_pay2 (F := Ideal) xb wb = matmul (F := Ideal) (DotDims.plain 5000 128 64) none xb wb (constant (⟨2, ![5000, 64]⟩ : Shape) .f32 0x00000000#32) := rfl

theorem pay3_eq (xb : FVec Ideal S5000x128 .f32) (wb : FVec Ideal S128x64 .f32) :
    k0_pay3 (F := Ideal) xb wb = matmul (F := Ideal) (DotDims.plain 5000 128 64) none xb wb (constant (⟨2, ![5000, 64]⟩ : Shape) .f32 0x00000000#32) := rfl

/-- What grid point t writes back to output 3: rows 5000·t … 5000·t + 4999 of the whole product. -/
theorem flushed3 (c : Dev nD) (t : Fin cfg0.N) :
    (dat0 V c).flushed 3 t = ((cfg0.win 3).blk t).view.read (Elt Ideal) (prod (V c main_arg0) (V c main_arg1)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x64) hz]
  rw [pay2_eq]
  obtain ⟨ht, a0, a1, b0, b1, c0, c1, d0, d1, e0, e1⟩ := idx_facts t
  refine funext fun (j : S5000x64.Idx) => ?_
  obtain ⟨p, q, rfl⟩ : ∃ (p : Fin 5000) (q : Fin 64), j = ix2 p q := ⟨j 0, j 1, eq_ix2 j⟩
  have hP : t.val * 5000 + p.val < 100000 := by have := p.isLt; omega
  have hemb : ((cfg0.win 3).blk t).view.emb (ix2 p q) = ix2 (⟨t.val * 5000 + p.val, hP⟩ : Fin 100000) q := by
    funext a; apply Fin.ext
    match a with
    | ⟨0, _⟩ => show win0_3.index t (0 : Fin 2) * 5000 + 1 * p.val = t.val * 5000 + p.val; omega
    | ⟨1, _⟩ => show win0_3.index t (1 : Fin 2) * 64 + 1 * q.val = q.val; omega
  show matmul (F := Ideal) (DotDims.plain 5000 128 64) none (iblk0 V c 0 t) (iblk0 V c 1 t) (constant (⟨2, ![5000, 64]⟩ : Shape) .f32 0x00000000#32) (ix2 p q)
    = prod (V c main_arg0) (V c main_arg1) (((cfg0.win 3).blk t).view.emb (ix2 p q))
  rw [hemb]
  refine blockProd_at (V c main_arg0) (V c main_arg1) (iblk0 V c 0 t) (iblk0 V c 1 t) p q ⟨t.val * 5000 + p.val, hP⟩ (fun k => ?_) ?_
  · have h0 : ((cfg0.win 0).blk t).view.emb (ix2 p k) = ix2 (⟨t.val * 5000 + p.val, hP⟩ : Fin 100000) k := by
      funext a; apply Fin.ext
      match a with
      | ⟨0, _⟩ => show win0_0.index t (0 : Fin 2) * 5000 + 1 * p.val = t.val * 5000 + p.val; omega
      | ⟨1, _⟩ => show win0_0.index t (1 : Fin 2) * 128 + 1 * k.val = k.val; omega
    show V c main_arg0 (((cfg0.win 0).blk t).view.emb (ix2 p k)) = V c main_arg0 (ix2 (⟨t.val * 5000 + p.val, hP⟩ : Fin 100000) k)
    rw [h0]
  · funext y
    have h1 : ((cfg0.win 1).blk t).view.emb y = y := by
      funext a; apply Fin.ext
      match a with
      | ⟨0, _⟩ => show win0_1.index t (0 : Fin 2) * 128 + 1 * (y 0).val = (y 0).val; omega
      | ⟨1, _⟩ => show win0_1.index t (1 : Fin 2) * 64 + 1 * (y 1).val = (y 1).val; omega
    show V c main_arg1 (((cfg0.win 1).blk t).view.emb y) = V c main_arg1 y
    rw [h1]

/-- An index of the output lies in grid point t's block iff each coordinate lies in the block's range. -/
theorem mem_blk3 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v0_0).slice (win0_3.rect t)).set ↔ _
  rw [View.set_slice_whole, Rect.mem_set_unit]
  exact Iff.rfl

/-- Every row n of the output is written by the grid point n / 5000. -/
theorem cover3 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  obtain ⟨t, htv⟩ : ∃ t : Fin cfg0.N, t.val = (i 0).val / 5000 := ⟨⟨(i 0).val / 5000, by rw [hN]; omega⟩, rfl⟩
  obtain ⟨ht, a0, a1, b0, b1, c0, c1, d0, d1, e0, e1⟩ := idx_facts t
  refine ⟨t, flush0_3 t, ?_⟩
  rw [mem_blk3]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- Output 3 after the launch is the whole product. -/
theorem final3 (c : Dev nD) : (dat0 V c).arrAt 3 cfg0.N = prod (V c main_arg0) (V c main_arg1) :=
  (dat0 V c).arrAt_eq_of_cover 3 (prod (V c main_arg0) (V c main_arg1)) (fun t _ => flushed3 V c t) cover3

/-- What grid point t writes back to output 4: rows 5000·t … 5000·t + 4999 of the whole product. -/
theorem flushed4 (c : Dev nD) (t : Fin cfg0.N) :
    (dat0 V c).flushed 4 t = ((cfg0.win 4).blk t).view.read (Elt Ideal) (prod (V c main_arg0) (V c main_arg2)) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x64) hz]
  rw [pay3_eq]
  obtain ⟨ht, a0, a1, b0, b1, c0, c1, d0, d1, e0, e1⟩ := idx_facts t
  refine funext fun (j : S5000x64.Idx) => ?_
  obtain ⟨p, q, rfl⟩ : ∃ (p : Fin 5000) (q : Fin 64), j = ix2 p q := ⟨j 0, j 1, eq_ix2 j⟩
  have hP : t.val * 5000 + p.val < 100000 := by have := p.isLt; omega
  have hemb : ((cfg0.win 4).blk t).view.emb (ix2 p q) = ix2 (⟨t.val * 5000 + p.val, hP⟩ : Fin 100000) q := by
    funext a; apply Fin.ext
    match a with
    | ⟨0, _⟩ => show win0_4.index t (0 : Fin 2) * 5000 + 1 * p.val = t.val * 5000 + p.val; omega
    | ⟨1, _⟩ => show win0_4.index t (1 : Fin 2) * 64 + 1 * q.val = q.val; omega
  show matmul (F := Ideal) (DotDims.plain 5000 128 64) none (iblk0 V c 0 t) (iblk0 V c 2 t) (constant (⟨2, ![5000, 64]⟩ : Shape) .f32 0x00000000#32) (ix2 p q)
    = prod (V c main_arg0) (V c main_arg2) (((cfg0.win 4).blk t).view.emb (ix2 p q))
  rw [hemb]
  refine blockProd_at (V c main_arg0) (V c main_arg2) (iblk0 V c 0 t) (iblk0 V c 2 t) p q ⟨t.val * 5000 + p.val, hP⟩ (fun k => ?_) ?_
  · have h0 : ((cfg0.win 0).blk t).view.emb (ix2 p k) = ix2 (⟨t.val * 5000 + p.val, hP⟩ : Fin 100000) k := by
      funext a; apply Fin.ext
      match a with
      | ⟨0, _⟩ => show win0_0.index t (0 : Fin 2) * 5000 + 1 * p.val = t.val * 5000 + p.val; omega
      | ⟨1, _⟩ => show win0_0.index t (1 : Fin 2) * 128 + 1 * k.val = k.val; omega
    show V c main_arg0 (((cfg0.win 0).blk t).view.emb (ix2 p k)) = V c main_arg0 (ix2 (⟨t.val * 5000 + p.val, hP⟩ : Fin 100000) k)
    rw [h0]
  · funext y
    have h1 : ((cfg0.win 2).blk t).view.emb y = y := by
      funext a; apply Fin.ext
      match a with
      | ⟨0, _⟩ => show win0_2.index t (0 : Fin 2) * 128 + 1 * (y 0).val = (y 0).val; omega
      | ⟨1, _⟩ => show win0_2.index t (1 : Fin 2) * 64 + 1 * (y 1).val = (y 1).val; omega
    show V c main_arg2 (((cfg0.win 2).blk t).view.emb y) = V c main_arg2 y
    rw [h1]

/-- An index of the output lies in grid point t's block iff each coordinate lies in the block's range. -/
theorem mem_blk4 (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v0_1).slice (win0_4.rect t)).set ↔ _
  rw [View.set_slice_whole, Rect.mem_set_unit]
  exact Iff.rfl

/-- Every row n of the output is written by the grid point n / 5000. -/
theorem cover4 (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 20 := N_0
  obtain ⟨t, htv⟩ : ∃ t : Fin cfg0.N, t.val = (i 0).val / 5000 := ⟨⟨(i 0).val / 5000, by rw [hN]; omega⟩, rfl⟩
  obtain ⟨ht, a0, a1, b0, b1, c0, c1, d0, d1, e0, e1⟩ := idx_facts t
  refine ⟨t, flush0_4 t, ?_⟩
  rw [mem_blk4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- Output 4 after the launch is the whole product. -/
theorem final4 (c : Dev nD) : (dat0 V c).arrAt 4 cfg0.N = prod (V c main_arg0) (V c main_arg2) :=
  (dat0 V c).arrAt_eq_of_cover 4 (prod (V c main_arg0) (V c main_arg2)) (fun t _ => flushed4 V c t) cover4

end Cert.KernelIdeal.Region0

end
-- ==== Proof.LibKeepdimsColumn.lean ====
/-
  Reading a row reduction kept as a column. A kernel that writes `sum(x, axis=-1, keepdims=True)` over an `[a, b]`
  block produces an `[a]` vector of lane sums, casts it to the column `[a, 1]`, works on the column, and
  broadcasts it back over the `b` lanes. Three index-level readings, at the extended reals, over generic extents:
  the cast to a column, the broadcast of a column over the lanes, and the lane sum itself as a `Fin b`-indexed sum.
-/
import Idealize.ShloMosaic.Lib.Pipeline.Value
import Idealize.ShloMosaic.Lib.ValueIdx
import Idealize.ShloMosaic.PureOps.Ideal.Laws

namespace Cert.KeepdimsColumn

open Idealize.ShloMosaic Idealize.ShloMosaic.ValueIdx

variable {α : Type}

/-- An `[a]` array cast to the column `[a, 1]` reads, at `(p, u)`, the operand at `p`: both sit at row-major
    position `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, c)`, the column's entry of row `p`, whatever the lane `c`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` vector, read at row `p` on the extended reals, is the sum over the `b` lanes of
    that row: the source index over `p` with lane `k` inserted is `(p, k)`. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (funext fun c => Fin.ext (by
    match c with
    | ⟨0, _⟩ => rfl
    | ⟨1, _⟩ => rfl))

end Cert.KeepdimsColumn
-- ==== Proof.Region1.lean ====
/-
  The second launch: the hidden features of every node, 5000 nodes per grid point.

  Each grid point t reads rows 5000·t … 5000·t + 4999 of the node's own transformed features, of the summed
  neighbour features and of the degree column, and the one bias row, and writes
      max( (own + summed / max(degree, 1)) + bias, 0 )
  entry by entry into the same rows of the output. Entry (n, j) depends only on row n of the three tables and on
  bias entry j, so the blocks written are the blocks of one whole array, and the twenty blocks tile the 100000 rows.
-/
import proofs.«122616_j54760833024622_1_alg».proof.Proof.KernelIdealFrameP
import proofs.«122616_j54760833024622_1_alg».proof.Proof.LibKeepdimsColumn
import Idealize.ShloMosaic.Lib.ValueLayout
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.KernelIdeal.GenP

variable (V : (c : Dev nD) → (b : Ref sig .tc) → Buf (Elt Ideal) ((c : Thread nD τ).loc b))

/-- The hidden features: entry (n, j) is max((s[n, j] + a[n, j] / max(d[n, 0], 1)) + b[0, j], 0). -/
def hidden (s a : FVec Ideal S100000x64 .f32) (d : FVec Ideal S100000x1 .f32) (b : FVec Ideal S1x64 .f32) : FVec Ideal S100000x64 .f32 :=
  fun i => max ((s i + Ideal.div (a i) (max (d (ix2 (i 0) (0 : Fin 1))) (Scalar.ofBits (F := Ideal) .f32 0x3F800000#32)))
    + b (ix2 (0 : Fin 1) (i 1))) (Scalar.ofBits (F := Ideal) .f32 0x00000000#32)

theorem hidden_apply (s a : FVec Ideal S100000x64 .f32) (d : FVec Ideal S100000x1 .f32) (b : FVec Ideal S1x64 .f32) (P : Fin 100000) (q : Fin 64) :
    hidden s a d b (ix2 P q) = max ((s (ix2 P q) + Ideal.div (a (ix2 P q)) (max (d (ix2 P (0 : Fin 1))) (Scalar.ofBits (F := Ideal) .f32 0x3F800000#32)))
    + b (ix2 (0 : Fin 1) q)) (Scalar.ofBits (F := Ideal) .f32 0x00000000#32) := rfl

theorem hz : (![0, 0] : Fin 2 → Nat) = fun _ => 0 := funext fun a => by fin_cases a <;> rfl

/-- Where each window's block sits at grid point t: the three tables and the output move with t, the bias stays. -/
theorem idx_facts : ∀ t : Fin cfg1.N, t.val < 20
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry (p, q) of a block's result is entry (P, q) of the whole array when row p of each block is row P of its table. -/
theorem pay1_at (S A : FVec Ideal S100000x64 .f32) (D : FVec Ideal S100000x1 .f32) (B : FVec Ideal S1x64 .f32)
    (db : FVec Ideal S5000x1 .f32) (ab sb : FVec Ideal S5000x64 .f32) (bb : FVec Ideal S1x64 .f32) (p : Fin 5000) (q : Fin 64) (P : Fin 100000)
    (hs : sb (ix2 p q) = S (ix2 P q)) (ha : ab (ix2 p q) = A (ix2 P q)) (hd : db (ix2 p (0 : Fin 1)) = D (ix2 P (0 : Fin 1))) (hb : bb = B) :
    k1_pay1 (F := Ideal) db ab sb bb (ix2 p q) = hidden S A D B (ix2 P q) := by
  subst hb
  unfold k1_pay1
  simp only [shapeCast_self]
  rw [hidden_apply, maximumf_apply, addf_apply, addf_apply, divf_apply, broadcast_apply]
  rw [broadcastTo_1b_ab_apply, Cert.KeepdimsColumn.broadcastTo_a1_ab_apply, maximumf_apply, broadcast_apply, hs, ha, hd]

/-- What grid point t writes back: rows 5000·t … 5000·t + 4999 of the hidden features. -/
theorem flushed4 (c : Dev nD) (t : Fin cfg1.N) :
    (dat1 V c).flushed 4 t = ((cfg1.win 4).blk t).view.read (Elt Ideal) (hidden (V c main_v0_0) (V c main_v10) (V c main_v15) (V c main_v16)) := by
  show (cfg1.win 4).cut (grid1.coords t) ((dat1 V c).after 4 t) = _
  rw [after1_4]
  unfold out1_4
  rw [View.canon_unit_zero hz]
  simp only [View.ld_unit_zero (S := S5000x64) hz, View.ld_unit_zero (S := S5000x1) hz, View.ld_unit_zero (S := S1x64) hz]
  obtain ⟨ht, a0, a1, b0, b1, c0, c1, d0, d1, e0, e1⟩ := idx_facts t
  refine funext fun (j : S5000x64.Idx) => ?_
  obtain ⟨p, q, rfl⟩ : ∃ (p : Fin 5000) (q : Fin 64), j = ix2 p q := ⟨j 0, j 1, eq_ix2 j⟩
  have hP : t.val * 5000 + p.val < 100000 := by have := p.isLt; omega
  have hemb : ((cfg1.win 4).blk t).view.emb (ix2 p q) = ix2 (⟨t.val * 5000 + p.val, hP⟩ : Fin 100000) q := by
    funext a; apply Fin.ext
    match a with
    | ⟨0, _⟩ => show win1_4.index t (0 : Fin 2) * 5000 + 1 * p.val = t.val * 5000 + p.val; omega
    | ⟨1, _⟩ => show win1_4.index t (1 : Fin 2) * 64 + 1 * q.val = q.val; omega
  show k1_pay1 (F := Ideal) (iblk1 V c 2 t) (iblk1 V c 1 t) (iblk1 V c 0 t) (iblk1 V c 3 t) (ix2 p q)
    = hidden (V c main_v0_0) (V c main_v10) (V c main_v15) (V c main_v16) (((cfg1.win 4).blk t).view.emb (ix2 p q))
  rw [hemb]
  refine pay1_at (V c main_v0_0) (V c main_v10) (V c main_v15) (V c main_v16) (iblk1 V c 2 t) (iblk1 V c 1 t) (iblk1 V c 0 t) (iblk1 V c 3 t) p q ⟨t.val * 5000 + p.val, hP⟩ ?_ ?_ ?_ ?_
  · have h0 : ((cfg1.win 0).blk t).view.emb (ix2 p q) = ix2 (⟨t.val * 5000 + p.val, hP⟩ : Fin 100000) q := by
      funext a; apply Fin.ext
      match a with
      | ⟨0, _⟩ => show win1_0.index t (0 : Fin 2) * 5000 + 1 * p.val = t.val * 5000 + p.val; omega
      | ⟨1, _⟩ => show win1_0.index t (1 : Fin 2) * 64 + 1 * q.val = q.val; omega
    show V c main_v0_0 (((cfg1.win 0).blk t).view.emb (ix2 p q)) = V c main_v0_0 (ix2 (⟨t.val * 5000 + p.val, hP⟩ : Fin 100000) q)
    rw [h0]
  · have h1 : ((cfg1.win 1).blk t).view.emb (ix2 p q) = ix2 (⟨t.val * 5000 + p.val, hP⟩ : Fin 100000) q := by
      funext a; apply Fin.ext
      match a with
      | ⟨0, _⟩ => show win1_1.index t (0 : Fin 2) * 5000 + 1 * p.val = t.val * 5000 + p.val; omega
      | ⟨1, _⟩ => show win1_1.index t (1 : Fin 2) * 64 + 1 * q.val = q.val; omega
    show V c main_v10 (((cfg1.win 1).blk t).view.emb (ix2 p q)) = V c main_v10 (ix2 (⟨t.val * 5000 + p.val, hP⟩ : Fin 100000) q)
    rw [h1]
  · have h2 : ((cfg1.win 2).blk t).view.emb (ix2 p (0 : Fin 1)) = ix2 (⟨t.val * 5000 + p.val, hP⟩ : Fin 100000) (0 : Fin 1) := by
      funext a; apply Fin.ext
      match a with
      | ⟨0, _⟩ => show win1_2.index t (0 : Fin 2) * 5000 + 1 * p.val = t.val * 5000 + p.val; omega
      | ⟨1, _⟩ => show win1_2.index t (1 : Fin 2) * 1 + 1 * 0 = 0; omega
    show V c main_v15 (((cfg1.win 2).blk t).view.emb (ix2 p (0 : Fin 1))) = V c main_v15 (ix2 (⟨t.val * 5000 + p.val, hP⟩ : Fin 100000) (0 : Fin 1))
    rw [h2]
  · funext y
    have h3 : ((cfg1.win 3).blk t).view.emb y = y := by
      funext a; apply Fin.ext
      match a with
      | ⟨0, _⟩ => show win1_3.index t (0 : Fin 2) * 1 + 1 * (y 0).val = (y 0).val; omega
      | ⟨1, _⟩ => show win1_3.index t (1 : Fin 2) * 64 + 1 * (y 1).val = (y 1).val; omega
    show V c main_v16 (((cfg1.win 3).blk t).view.emb y) = V c main_v16 y
    rw [h3]

/-- An index of the output lies in grid point t's block iff each coordinate lies in the block's range. -/
theorem mem_blk4 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v17).slice (win1_4.rect t)).set ↔ _
  rw [View.set_slice_whole, Rect.mem_set_unit]
  exact Iff.rfl

/-- Row n of the output is written by the grid point n / 5000. -/
theorem cover4 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  obtain ⟨t, htv⟩ : ∃ t : Fin cfg1.N, t.val = (i 0).val / 5000 := ⟨⟨(i 0).val / 5000, by rw [hN]; omega⟩, rfl⟩
  obtain ⟨ht, a0, a1, b0, b1, c0, c1, d0, d1, e0, e1⟩ := idx_facts t
  refine ⟨t, flush1_4 t, ?_⟩
  rw [mem_blk4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- The output after the launch is the hidden features of every node. -/
theorem final4 (c : Dev nD) : (dat1 V c).arrAt 4 cfg1.N = hidden (V c main_v0_0) (V c main_v10) (V c main_v15) (V c main_v16) :=
  (dat1 V c).arrAt_eq_of_cover 4 (hidden (V c main_v0_0) (V c main_v10) (V c main_v15) (V c main_v16)) (fun t _ => flushed4 V c t) cover4

end Cert.KernelIdeal.Region1

end
-- ==== Proof.Region2.lean ====
/-
  The third launch: for every edge, the dot product of two 64-entry rows, 8000 edges per grid point.

  Each grid point t reads edges 8000·t … 8000·t + 7999 of four row tables (the hidden rows gathered at the two
  endpoints of the positive and of the negative edges) and writes, for each of its edges, the sum over the 64 lanes
  of the product of the two rows. An edge's value depends only on that edge's two rows, so the blocks written are
  the blocks of one whole column of dot products, and the 200 blocks tile the 1600000 edges.
-/
import proofs.«122616_j54760833024622_1_alg».proof.Proof.KernelIdealFrameP
import proofs.«122616_j54760833024622_1_alg».proof.Proof.LibKeepdimsColumn
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.KernelIdeal.GenP

variable (V : (c : Dev nD) → (b : Ref sig .tc) → Buf (Elt Ideal) ((c : Thread nD τ).loc b))

/-- The column of per-edge dot products: entry (e, 0) is the sum over the 64 lanes k of a[e, k] · b[e, k]. -/
def rowDot (a b : FVec Ideal S1600000x64 .f32) : FVec Ideal S1600000x1 .f32 :=
  fun i => ∑ k : Fin 64, a (ix2 (i 0) k) * b (ix2 (i 0) k)

theorem rowDot_apply (a b : FVec Ideal S1600000x64 .f32) (P : Fin 1600000) (u : Fin 1) :
    rowDot a b (ix2 P u) = ∑ k : Fin 64, a (ix2 P k) * b (ix2 P k) := rfl

theorem hz : (![0, 0] : Fin 2 → Nat) = fun _ => 0 := funext fun a => by fin_cases a <;> rfl

/-- Where each window's block sits at grid point t: all six move with t along the edge axis. -/
theorem idx_facts : ∀ t : Fin cfg2.N, t.val < 200
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

theorem pay1_at (A B : FVec Ideal S1600000x64 .f32) (ab bb : FVec Ideal S8000x64 .f32) (p : Fin 8000) (u : Fin 1) (P : Fin 1600000)
    (ha : ∀ k : Fin 64, ab (ix2 p k) = A (ix2 P k)) (hb : ∀ k : Fin 64, bb (ix2 p k) = B (ix2 P k)) :
    k2_pay1 (F := Ideal) ab bb (ix2 p u) = rowDot A B (ix2 P u) := by
  unfold k2_pay1
  simp only [shapeCast_self]
  refine (Cert.KeepdimsColumn.shapeCast_a_a1_apply _ shapeCasts_S8000_S8000x1 p u).trans ?_
  refine (Cert.KeepdimsColumn.laneSum_apply (mulf ab bb) 0x00000000#32 reduces_S8000x64_S8000 (.inl rfl) rfl p).trans ?_
  exact Finset.sum_congr rfl fun k _ => by
    show ab (ix2 p k) * bb (ix2 p k) = A (ix2 P k) * B (ix2 P k)
    rw [ha k, hb k]

/-- What grid point t writes back to output 4: entries 8000·t … 8000·t + 7999 of the per-edge dot products. -/
theorem flushed4 (c : Dev nD) (t : Fin cfg2.N) :
    (dat2 V c).flushed 4 t = ((cfg2.win 4).blk t).view.read (Elt Ideal) (rowDot (V c main_v24) (V c main_v31)) := by
  show (cfg2.win 4).cut (grid2.coords t) ((dat2 V c).after 4 t) = _
  rw [after2_4]
  unfold out2_4
  rw [View.canon_unit_zero hz]
  simp only [View.ld_unit_zero (S := S8000x64) hz]
  obtain ⟨ht, a0, a1, b0, b1, c0, c1, d0, d1, e0, e1, f0, f1⟩ := idx_facts t
  refine funext fun (j : S8000x1.Idx) => ?_
  obtain ⟨p, u, rfl⟩ : ∃ (p : Fin 8000) (u : Fin 1), j = ix2 p u := ⟨j 0, j 1, eq_ix2 j⟩
  have hP : t.val * 8000 + p.val < 1600000 := by have := p.isLt; omega
  have hemb : ((cfg2.win 4).blk t).view.emb (ix2 p u) = ix2 (⟨t.val * 8000 + p.val, hP⟩ : Fin 1600000) u := by
    funext a; apply Fin.ext
    match a with
    | ⟨0, _⟩ => show win2_4.index t (0 : Fin 2) * 8000 + 1 * p.val = t.val * 8000 + p.val; omega
    | ⟨1, _⟩ => show win2_4.index t (1 : Fin 2) * 1 + 1 * u.val = u.val; omega
  show k2_pay1 (F := Ideal) (iblk2 V c 0 t) (iblk2 V c 1 t) (ix2 p u)
    = rowDot (V c main_v24) (V c main_v31) (((cfg2.win 4).blk t).view.emb (ix2 p u))
  rw [hemb]
  refine pay1_at (V c main_v24) (V c main_v31) (iblk2 V c 0 t) (iblk2 V c 1 t) p u ⟨t.val * 8000 + p.val, hP⟩ (fun k => ?_) (fun k => ?_)
  · have h0 : ((cfg2.win 0).blk t).view.emb (ix2 p k) = ix2 (⟨t.val * 8000 + p.val, hP⟩ : Fin 1600000) k := by
      funext a; apply Fin.ext
      match a with
      | ⟨0, _⟩ => show win2_0.index t (0 : Fin 2) * 8000 + 1 * p.val = t.val * 8000 + p.val; omega
      | ⟨1, _⟩ => show win2_0.index t (1 : Fin 2) * 64 + 1 * k.val = k.val; omega
    show V c main_v24 (((cfg2.win 0).blk t).view.emb (ix2 p k)) = V c main_v24 (ix2 (⟨t.val * 8000 + p.val, hP⟩ : Fin 1600000) k)
    rw [h0]
  · have h1 : ((cfg2.win 1).blk t).view.emb (ix2 p k) = ix2 (⟨t.val * 8000 + p.val, hP⟩ : Fin 1600000) k := by
      funext a; apply Fin.ext
      match a with
      | ⟨0, _⟩ => show win2_1.index t (0 : Fin 2) * 8000 + 1 * p.val = t.val * 8000 + p.val; omega
      | ⟨1, _⟩ => show win2_1.index t (1 : Fin 2) * 64 + 1 * k.val = k.val; omega
    show V c main_v31 (((cfg2.win 1).blk t).view.emb (ix2 p k)) = V c main_v31 (ix2 (⟨t.val * 8000 + p.val, hP⟩ : Fin 1600000) k)
    rw [h1]

/-- An index of the output lies in grid point t's block iff each coordinate lies in the block's range. -/
theorem mem_blk4 (t : Fin cfg2.N) (i : S1600000x1.Idx) :
    i ∈ ((cfg2.win 4).blk t).view.set ↔ ∀ a : Fin 2, win2_4.index t a * S8000x1.size a ≤ (i a).val ∧ (i a).val < win2_4.index t a * S8000x1.size a + S8000x1.size a := by
  show i ∈ ((View.whole main_v46_0).slice (win2_4.rect t)).set ↔ _
  rw [View.set_slice_whole, Rect.mem_set_unit]
  exact Iff.rfl

/-- Edge e of the output is written by the grid point e / 8000. -/
theorem cover4 (i : S1600000x1.Idx) : ∃ t : Fin cfg2.N, (cfg2.win 4).flush t = true ∧ i ∈ ((cfg2.win 4).blk t).view.set := by
  have hi0 : (i 0).val < 1600000 := (i 0).isLt
  have hi1 : (i 1).val < 1 := (i 1).isLt
  have hN : cfg2.N = 200 := N_2
  obtain ⟨t, htv⟩ : ∃ t : Fin cfg2.N, t.val = (i 0).val / 8000 := ⟨⟨(i 0).val / 8000, by rw [hN]; omega⟩, rfl⟩
  obtain ⟨ht, a0, a1, b0, b1, c0, c1, d0, d1, e0, e1, f0, f1⟩ := idx_facts t
  refine ⟨t, flush2_4 t, ?_⟩
  rw [mem_blk4]
  intro a
  match a with
  | ⟨0, _⟩ => show win2_4.index t (0 : Fin 2) * 8000 ≤ (i 0).val ∧ (i 0).val < win2_4.index t (0 : Fin 2) * 8000 + 8000; omega
  | ⟨1, _⟩ => show win2_4.index t (1 : Fin 2) * 1 ≤ (i 1).val ∧ (i 1).val < win2_4.index t (1 : Fin 2) * 1 + 1; omega

/-- Output 4 after the launch holds every edge's dot product. -/
theorem final4 (c : Dev nD) : (dat2 V c).arrAt 4 cfg2.N = rowDot (V c main_v24) (V c main_v31) :=
  (dat2 V c).arrAt_eq_of_cover 4 (rowDot (V c main_v24) (V c main_v31)) (fun t _ => flushed4 V c t) cover4

theorem pay2_at (A B : FVec Ideal S1600000x64 .f32) (ab bb : FVec Ideal S8000x64 .f32) (p : Fin 8000) (u : Fin 1) (P : Fin 1600000)
    (ha : ∀ k : Fin 64, ab (ix2 p k) = A (ix2 P k)) (hb : ∀ k : Fin 64, bb (ix2 p k) = B (ix2 P k)) :
    k2_pay2 (F := Ideal) ab bb (ix2 p u) = rowDot A B (ix2 P u) := by
  unfold k2_pay2
  simp only [shapeCast_self]
  refine (Cert.KeepdimsColumn.shapeCast_a_a1_apply _ shapeCasts_S8000_S8000x1 p u).trans ?_
  refine (Cert.KeepdimsColumn.laneSum_apply (mulf ab bb) 0x00000000#32 reduces_S8000x64_S8000 (.inl rfl) rfl p).trans ?_
  exact Finset.sum_congr rfl fun k _ => by
    show ab (ix2 p k) * bb (ix2 p k) = A (ix2 P k) * B (ix2 P k)
    rw [ha k, hb k]

/-- What grid point t writes back to output 5: entries 8000·t … 8000·t + 7999 of the per-edge dot products. -/
theorem flushed5 (c : Dev nD) (t : Fin cfg2.N) :
    (dat2 V c).flushed 5 t = ((cfg2.win 5).blk t).view.read (Elt Ideal) (rowDot (V c main_v38) (V c main_v45)) := by
  show (cfg2.win 5).cut (grid2.coords t) ((dat2 V c).after 5 t) = _
  rw [after2_5]
  unfold out2_5
  rw [View.canon_unit_zero hz]
  simp only [View.ld_unit_zero (S := S8000x64) hz]
  obtain ⟨ht, a0, a1, b0, b1, c0, c1, d0, d1, e0, e1, f0, f1⟩ := idx_facts t
  refine funext fun (j : S8000x1.Idx) => ?_
  obtain ⟨p, u, rfl⟩ : ∃ (p : Fin 8000) (u : Fin 1), j = ix2 p u := ⟨j 0, j 1, eq_ix2 j⟩
  have hP : t.val * 8000 + p.val < 1600000 := by have := p.isLt; omega
  have hemb : ((cfg2.win 5).blk t).view.emb (ix2 p u) = ix2 (⟨t.val * 8000 + p.val, hP⟩ : Fin 1600000) u := by
    funext a; apply Fin.ext
    match a with
    | ⟨0, _⟩ => show win2_5.index t (0 : Fin 2) * 8000 + 1 * p.val = t.val * 8000 + p.val; omega
    | ⟨1, _⟩ => show win2_5.index t (1 : Fin 2) * 1 + 1 * u.val = u.val; omega
  show k2_pay2 (F := Ideal) (iblk2 V c 2 t) (iblk2 V c 3 t) (ix2 p u)
    = rowDot (V c main_v38) (V c main_v45) (((cfg2.win 5).blk t).view.emb (ix2 p u))
  rw [hemb]
  refine pay2_at (V c main_v38) (V c main_v45) (iblk2 V c 2 t) (iblk2 V c 3 t) p u ⟨t.val * 8000 + p.val, hP⟩ (fun k => ?_) (fun k => ?_)
  · have h0 : ((cfg2.win 2).blk t).view.emb (ix2 p k) = ix2 (⟨t.val * 8000 + p.val, hP⟩ : Fin 1600000) k := by
      funext a; apply Fin.ext
      match a with
      | ⟨0, _⟩ => show win2_2.index t (0 : Fin 2) * 8000 + 1 * p.val = t.val * 8000 + p.val; omega
      | ⟨1, _⟩ => show win2_2.index t (1 : Fin 2) * 64 + 1 * k.val = k.val; omega
    show V c main_v38 (((cfg2.win 2).blk t).view.emb (ix2 p k)) = V c main_v38 (ix2 (⟨t.val * 8000 + p.val, hP⟩ : Fin 1600000) k)
    rw [h0]
  · have h1 : ((cfg2.win 3).blk t).view.emb (ix2 p k) = ix2 (⟨t.val * 8000 + p.val, hP⟩ : Fin 1600000) k := by
      funext a; apply Fin.ext
      match a with
      | ⟨0, _⟩ => show win2_3.index t (0 : Fin 2) * 8000 + 1 * p.val = t.val * 8000 + p.val; omega
      | ⟨1, _⟩ => show win2_3.index t (1 : Fin 2) * 64 + 1 * k.val = k.val; omega
    show V c main_v45 (((cfg2.win 3).blk t).view.emb (ix2 p k)) = V c main_v45 (ix2 (⟨t.val * 8000 + p.val, hP⟩ : Fin 1600000) k)
    rw [h1]

/-- An index of the output lies in grid point t's block iff each coordinate lies in the block's range. -/
theorem mem_blk5 (t : Fin cfg2.N) (i : S1600000x1.Idx) :
    i ∈ ((cfg2.win 5).blk t).view.set ↔ ∀ a : Fin 2, win2_5.index t a * S8000x1.size a ≤ (i a).val ∧ (i a).val < win2_5.index t a * S8000x1.size a + S8000x1.size a := by
  show i ∈ ((View.whole main_v46_1).slice (win2_5.rect t)).set ↔ _
  rw [View.set_slice_whole, Rect.mem_set_unit]
  exact Iff.rfl

/-- Edge e of the output is written by the grid point e / 8000. -/
theorem cover5 (i : S1600000x1.Idx) : ∃ t : Fin cfg2.N, (cfg2.win 5).flush t = true ∧ i ∈ ((cfg2.win 5).blk t).view.set := by
  have hi0 : (i 0).val < 1600000 := (i 0).isLt
  have hi1 : (i 1).val < 1 := (i 1).isLt
  have hN : cfg2.N = 200 := N_2
  obtain ⟨t, htv⟩ : ∃ t : Fin cfg2.N, t.val = (i 0).val / 8000 := ⟨⟨(i 0).val / 8000, by rw [hN]; omega⟩, rfl⟩
  obtain ⟨ht, a0, a1, b0, b1, c0, c1, d0, d1, e0, e1, f0, f1⟩ := idx_facts t
  refine ⟨t, flush2_5 t, ?_⟩
  rw [mem_blk5]
  intro a
  match a with
  | ⟨0, _⟩ => show win2_5.index t (0 : Fin 2) * 8000 ≤ (i 0).val ∧ (i 0).val < win2_5.index t (0 : Fin 2) * 8000 + 8000; omega
  | ⟨1, _⟩ => show win2_5.index t (1 : Fin 2) * 1 ≤ (i 1).val ∧ (i 1).val < win2_5.index t (1 : Fin 2) * 1 + 1; omega

/-- Output 5 after the launch holds every edge's dot product. -/
theorem final5 (c : Dev nD) : (dat2 V c).arrAt 5 cfg2.N = rowDot (V c main_v38) (V c main_v45) :=
  (dat2 V c).arrAt_eq_of_cover 5 (rowDot (V c main_v38) (V c main_v45)) (fun t _ => flushed5 V c t) cover5

end Cert.KernelIdeal.Region2

end
-- ==== Proof.Bridge.lean ====
/-
  The three launches' whole-array results are the reference's stages.

  The product of the features with a weight matrix is the reference's matrix product. The hidden features written
  entry by entry from the node's own features s, the neighbour sum a, the degree column d and the bias row b are the
  reference's max((s + a / max(d, 1)) + b, 0): the reference takes the maximum with one on the degree vector and then
  broadcasts it over the 64 lanes, the launch broadcasts the column and takes the maximum per entry, which read at
  entry (n, j) are the same number. The column of per-edge dot products is the reference's product of the two gathered
  row tables summed along the lanes from zero and kept as a column.
-/
import proofs.«122616_j54760833024622_1_alg».proof.Proof.Region0
import proofs.«122616_j54760833024622_1_alg».proof.Proof.Region1
import proofs.«122616_j54760833024622_1_alg».proof.Proof.Region2
import proofs.«122616_j54760833024622_1_alg».proof.Proof.Gen.ReferenceIdeal.Read
import Idealize.ShloMosaic.Lib.IdealHost

noncomputable section

open Idealize.ShloMosaic Idealize.ShloMosaic.TcCoe Idealize.SL.Sem Idealize.ShloMosaic.ValueIdx

namespace Cert.Bridge

open Cert.ReferenceIdeal Cert.ReferenceIdeal.Gen Cert.ReferenceIdeal.Read

/-- The whole product is the reference's product of the features with the self weights. -/
theorem prod_eq_self (x0 : FVec Ideal S100000x128 .f32) (x1 : FVec Ideal S128x64 .f32) :
    Cert.KernelIdeal.Region0.prod x0 x1 = val_main_v20 (F := Ideal) x0 x1 := rfl

/-- The whole product is the reference's product of the features with the neighbour weights. -/
theorem prod_eq_neigh (x0 : FVec Ideal S100000x128 .f32) (x2 : FVec Ideal S128x64 .f32) :
    Cert.KernelIdeal.Region0.prod x0 x2 = val_main_v0 (F := Ideal) x0 x2 := rfl

/-- The hidden features over the reference's own stages, the degree given as a column and the bias as a row. -/
theorem hidden_eq (x0 : FVec Ideal S100000x128 .f32) (x1 x2 : FVec Ideal S128x64 .f32) (x3 : FVec Ideal S64 .f32)
    (x4 x5 : IVec S1600000 32) (D : FVec Ideal S100000x1 .f32) (B : FVec Ideal S1x64 .f32)
    (hD : ∀ P : Fin 100000, D (ix2 P (0 : Fin 1)) = val_main_v14 (F := Ideal) x5 (ix1 P))
    (hB : ∀ q : Fin 64, B (ix2 (0 : Fin 1) q) = x3 (ix1 q)) :
    Cert.KernelIdeal.Region1.hidden (val_main_v20 (F := Ideal) x0 x1) (val_main_v10 (F := Ideal) x0 x2 x4 x5) D B
      = val_main_v25 (F := Ideal) x0 x1 x2 x3 x4 x5 := by
  funext i
  obtain ⟨P, q, rfl⟩ : ∃ (P : Fin 100000) (q : Fin 64), i = ix2 P q := ⟨i 0, i 1, eq_ix2 i⟩
  rw [Cert.KernelIdeal.Region1.hidden_apply, hD, hB]
  rw [val_main_v25_apply, val_main_v24_apply, val_main_v21_apply, val_main_v19_apply, val_main_v18_apply, val_main_v17_apply,
    val_main_v16_apply, val_main_v15_apply, val_main_cst_3_apply, val_main_v23_apply, val_main_v22_apply,
    val_main_call0_v0_apply, val_main_call0_cst_apply]
  have e1 : idx_main_v17 (idx_main_v18 (ix2 P q)) = ix1 P := funext fun a => Fin.ext (by match a with | ⟨0, _⟩ => rfl)
  have e2 : idx_main_v22 (idx_main_v23 (ix2 P q)) = ix1 q := funext fun a => Fin.ext (by match a with | ⟨0, _⟩ => rfl)
  rw [e1, e2]
  rfl

/-- The column of dot products of the two gathered row tables is the reference's pos score. -/
theorem rowDot_eq_pos (x0 : FVec Ideal S100000x128 .f32) (x1 x2 : FVec Ideal S128x64 .f32) (x3 : FVec Ideal S64 .f32) (x4 x5 : IVec S1600000 32) :
    Cert.KernelIdeal.Region2.rowDot (val_main_v32 (F := Ideal) x0 x1 x2 x3 x4 x5) (val_main_v39 (F := Ideal) x0 x1 x2 x3 x4 x5)
      = val_main_v42 (F := Ideal) x0 x1 x2 x3 x4 x5 := by
  funext i
  obtain ⟨P, u, rfl⟩ : ∃ (P : Fin 1600000) (u : Fin 1), i = ix2 P u := ⟨i 0, i 1, eq_ix2 i⟩
  rw [Cert.KernelIdeal.Region2.rowDot_apply, val_main_v42_apply, val_main_v41_apply, val_main_cst_8_apply]
  have hzero : (FloatOps.ofBits (F := Ideal) .f32 0x00000000#32) = (0 : EReal) := Ideal.ofBits_zero_f32
  have e : ∀ k : Fin 64, idx_main_v41 (idx_main_v42 (ix2 P u)) k = ix2 P k := fun k =>
    funext fun a => Fin.ext (by match a with | ⟨0, _⟩ => rfl | ⟨1, _⟩ => rfl)
  refine Eq.symm ((congrArg (· + _) hzero).trans ((zero_add _).trans ?_))
  refine Finset.sum_congr rfl fun k _ => ?_
  rw [e k, val_main_v40_apply]
  rfl

/-- The same for the negative edges, whose two row tables are gathered at the negative endpoints. -/
theorem rowDot_eq_neg (x0 : FVec Ideal S100000x128 .f32) (x1 x2 : FVec Ideal S128x64 .f32) (x3 : FVec Ideal S64 .f32) (x4 x5 x6 x7 : IVec S1600000 32) :
    Cert.KernelIdeal.Region2.rowDot (val_main_v49 (F := Ideal) x0 x1 x2 x3 x4 x5 x6) (val_main_v56 (F := Ideal) x0 x1 x2 x3 x4 x5 x7)
      = val_main_v59 (F := Ideal) x0 x1 x2 x3 x4 x5 x6 x7 := by
  funext i
  obtain ⟨P, u, rfl⟩ : ∃ (P : Fin 1600000) (u : Fin 1), i = ix2 P u := ⟨i 0, i 1, eq_ix2 i⟩
  rw [Cert.KernelIdeal.Region2.rowDot_apply, val_main_v59_apply, val_main_v58_apply, val_main_cst_13_apply]
  have hzero : (FloatOps.ofBits (F := Ideal) .f32 0x00000000#32) = (0 : EReal) := Ideal.ofBits_zero_f32
  have e : ∀ k : Fin 64, idx_main_v58 (idx_main_v59 (ix2 P u)) k = ix2 P k := fun k =>
    funext fun a => Fin.ext (by match a with | ⟨0, _⟩ => rfl | ⟨1, _⟩ => rfl)
  refine Eq.symm ((congrArg (· + _) hzero).trans ((zero_add _).trans ?_))
  refine Finset.sum_congr rfl fun k _ => ?_
  rw [e k, val_main_v57_apply]
  rfl

end Cert.Bridge

end
-- ==== Proof.Stages.lean ====
/-
  The contents of the buffers at each boundary of the run, read as the reference's stages.

  The run goes: first launch, a stretch of host operations, second launch, a second stretch, third launch. Nothing
  writes an argument, so every boundary sees the arguments as launched. The first launch leaves the two matrix
  products. The first stretch gathers the rows of the neighbour product at the source nodes, adds them up per
  destination node, counts the edges per destination node, and lays the count out as a column and the bias as a row:
  the same operations the reference applies. The second launch leaves the hidden features. The second stretch
  gathers their rows at the four endpoint lists, as the reference does. The third launch leaves the two columns of
  per-edge dot products.
-/
import proofs.«122616_j54760833024622_1_alg».proof.Proof.KernelIdealRun
import proofs.«122616_j54760833024622_1_alg».proof.Proof.Bridge
import Idealize.ShloMosaic.Lib.StableHlo.Run
import Idealize.ShloMosaic.Lib.ValueLayout

noncomputable section

open Idealize.ShloMosaic Idealize.ShloMosaic.TcCoe Idealize.SL.Sem Idealize.ShloMosaic.ValueIdx Idealize.ShloMosaic.StableHlo

namespace Cert.KernelIdeal.Stages

open Cert.KernelIdeal Cert.KernelIdeal.Gen Cert.KernelIdeal.GenP
open Cert.ReferenceIdeal.Read (val_main_v0 val_main_v20 val_main_v10 val_main_v14 val_main_v25 val_main_v32 val_main_v39 val_main_v49 val_main_v56 val_main_v42 val_main_v59)

variable (m : (ℓ : Loc nD τ sig) → Buf (Elt Ideal) ℓ) (ρ : Dev nD → PrngReg)

/-! ## The arguments at the boundaries -/

theorem W1_arg4 (c : Dev nD) : W1 m ρ c (Proc.devRef .tc main_arg4) = m ((c : Thread nD τ).loc main_arg4) := W1_of_ne m ρ c main_arg4 (by decide)
theorem W1_arg5 (c : Dev nD) : W1 m ρ c (Proc.devRef .tc main_arg5) = m ((c : Thread nD τ).loc main_arg5) := W1_of_ne m ρ c main_arg5 (by decide)
theorem W1_arg6 (c : Dev nD) : W1 m ρ c (Proc.devRef .tc main_arg6) = m ((c : Thread nD τ).loc main_arg6) := W1_of_ne m ρ c main_arg6 (by decide)
theorem W1_arg7 (c : Dev nD) : W1 m ρ c (Proc.devRef .tc main_arg7) = m ((c : Thread nD τ).loc main_arg7) := W1_of_ne m ρ c main_arg7 (by decide)
theorem W1_arg3 (c : Dev nD) : W1 m ρ c (Proc.devRef .tc main_arg3) = m ((c : Thread nD τ).loc main_arg3) := W1_of_ne m ρ c main_arg3 (by decide)

theorem W3_arg4 (c : Dev nD) : W3 m ρ c (Proc.devRef .tc main_arg4) = m ((c : Thread nD τ).loc main_arg4) := by
  rw [W3_of_ne m ρ c main_arg4 (by decide)]
  show StableHlo.after hostOps1 (W1 m ρ c) (Proc.devRef .tc main_arg4) = _
  after_results
  exact W1_arg4 m ρ c
theorem W3_arg5 (c : Dev nD) : W3 m ρ c (Proc.devRef .tc main_arg5) = m ((c : Thread nD τ).loc main_arg5) := by
  rw [W3_of_ne m ρ c main_arg5 (by decide)]
  show StableHlo.after hostOps1 (W1 m ρ c) (Proc.devRef .tc main_arg5) = _
  after_results
  exact W1_arg5 m ρ c
theorem W3_arg6 (c : Dev nD) : W3 m ρ c (Proc.devRef .tc main_arg6) = m ((c : Thread nD τ).loc main_arg6) := by
  rw [W3_of_ne m ρ c main_arg6 (by decide)]
  show StableHlo.after hostOps1 (W1 m ρ c) (Proc.devRef .tc main_arg6) = _
  after_results
  exact W1_arg6 m ρ c
theorem W3_arg7 (c : Dev nD) : W3 m ρ c (Proc.devRef .tc main_arg7) = m ((c : Thread nD τ).loc main_arg7) := by
  rw [W3_of_ne m ρ c main_arg7 (by decide)]
  show StableHlo.after hostOps1 (W1 m ρ c) (Proc.devRef .tc main_arg7) = _
  after_results
  exact W1_arg7 m ρ c

/-! ## After the first launch: the two products -/

theorem W1_self (c : Dev nD) : W1 m ρ c (Proc.devRef .tc main_v0_0)
    = val_main_v20 (F := Ideal) (m ((c : Thread nD τ).loc main_arg0)) (m ((c : Thread nD τ).loc main_arg1)) :=
  (W1_arr m ρ c 3).trans (Cert.KernelIdeal.Region0.final3 (V0 m ρ) c)

theorem W1_neigh (c : Dev nD) : W1 m ρ c (Proc.devRef .tc main_v0_1)
    = val_main_v0 (F := Ideal) (m ((c : Thread nD τ).loc main_arg0)) (m ((c : Thread nD τ).loc main_arg2)) :=
  (W1_arr m ρ c 4).trans (Cert.KernelIdeal.Region0.final4 (V0 m ρ) c)

/-! ## After the first stretch of host operations -/

theorem V2_self (c : Dev nD) : V2 m ρ c main_v0_0
    = val_main_v20 (F := Ideal) (m ((c : Thread nD τ).loc main_arg0)) (m ((c : Thread nD τ).loc main_arg1)) := by
  show StableHlo.after hostOps1 (W1 m ρ c) (Proc.devRef .tc main_v0_0) = _
  after_results
  exact W1_self m ρ c

theorem V2_agg (c : Dev nD) : V2 m ρ c main_v10
    = val_main_v10 (F := Ideal) (m ((c : Thread nD τ).loc main_arg0)) (m ((c : Thread nD τ).loc main_arg2)) (m ((c : Thread nD τ).loc main_arg4)) (m ((c : Thread nD τ).loc main_arg5)) := by
  show StableHlo.after hostOps1 (W1 m ρ c) (Proc.devRef .tc main_v10) = _
  after_results
  rw [W1_neigh m ρ c, W1_arg4 m ρ c, W1_arg5 m ρ c]
  rfl

theorem V2_deg (c : Dev nD) (P : Fin 100000) : V2 m ρ c main_v15 (ix2 P (0 : Fin 1))
    = val_main_v14 (F := Ideal) (m ((c : Thread nD τ).loc main_arg5)) (ix1 P) := by
  have e : V2 m ρ c main_v15 = shapeCast S100000x1 (val_main_v14 (F := Ideal) (m ((c : Thread nD τ).loc main_arg5))) shapeCasts_S100000_S100000x1 := by
    show StableHlo.after hostOps1 (W1 m ρ c) (Proc.devRef .tc main_v15) = _
    after_results
    rw [W1_arg5 m ρ c]
    rfl
  rw [e]
  exact Cert.KeepdimsColumn.shapeCast_a_a1_apply _ _ P 0

theorem V2_bias (c : Dev nD) (q : Fin 64) : V2 m ρ c main_v16 (ix2 (0 : Fin 1) q) = m ((c : Thread nD τ).loc main_arg3) (ix1 q) := by
  have e : V2 m ρ c main_v16 = shapeCast S1x64 (m ((c : Thread nD τ).loc main_arg3)) shapeCasts_S64_S1x64 := by
    show StableHlo.after hostOps1 (W1 m ρ c) (Proc.devRef .tc main_v16) = _
    after_results
    rw [W1_arg3 m ρ c]
    rfl
  rw [e]
  exact shapeCast_a_1a_apply _ _ 0 q

/-! ## After the second launch: the hidden features -/

theorem W3_hidden (c : Dev nD) : W3 m ρ c (Proc.devRef .tc main_v17)
    = val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W3_arr m ρ c 4).trans ((Cert.KernelIdeal.Region1.final4 (V2 m ρ) c).trans ?_)
  rw [V2_self m ρ c, V2_agg m ρ c]
  exact Cert.Bridge.hidden_eq _ _ _ _ _ _ (V2 m ρ c main_v15) (V2 m ρ c main_v16) (V2_deg m ρ c) (V2_bias m ρ c)

/-! ## After the second stretch of host operations: the hidden rows gathered at the edges' endpoints -/

theorem V4_posSrc (c : Dev nD) : V4 m ρ c main_v24
    = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W3 m ρ c) (Proc.devRef .tc main_v24) = _
  after_results
  rw [W3_hidden m ρ c, W3_arg4 m ρ c]
  rfl

set_option maxHeartbeats 2000000 in
theorem V4_posDst (c : Dev nD) : V4 m ρ c main_v31
    = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W3 m ρ c) (Proc.devRef .tc main_v31) = _
  after_results
  rw [W3_hidden m ρ c, W3_arg5 m ρ c]
  rfl

set_option maxHeartbeats 2000000 in
theorem V4_negSrc (c : Dev nD) : V4 m ρ c main_v38
    = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps2 (W3 m ρ c) (Proc.devRef .tc main_v38) = _
  after_results
  rw [W3_hidden m ρ c, W3_arg6 m ρ c]
  rfl

set_option maxHeartbeats 2000000 in
theorem V4_negDst (c : Dev nD) : V4 m ρ c main_v45
    = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  show StableHlo.after hostOps2 (W3 m ρ c) (Proc.devRef .tc main_v45) = _
  after_results
  rw [W3_hidden m ρ c, W3_arg7 m ρ c]
  rfl

/-! ## After the third launch: the two score columns -/

theorem W5_pos (c : Dev nD) : W5 m ρ c (Proc.devRef .tc main_v46_0)
    = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W5_arr m ρ c 4).trans ((Cert.KernelIdeal.Region2.final4 (V4 m ρ) c).trans ?_)
  rw [V4_posSrc m ρ c, V4_posDst m ρ c]
  exact Cert.Bridge.rowDot_eq_pos _ _ _ _ _ _

theorem W5_neg (c : Dev nD) : W5 m ρ c (Proc.devRef .tc main_v46_1)
    = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W5_arr m ρ c 5).trans ((Cert.KernelIdeal.Region2.final5 (V4 m ρ) c).trans ?_)
  rw [V4_negSrc m ρ c, V4_negDst m ρ c]
  exact Cert.Bridge.rowDot_eq_neg _ _ _ _ _ _ _ _

/-! ## The run, read -/

/-- Every weakly fair execution of the program terminates, nothing faulting, with the two result arrays at the
    reference's two score stages of the arguments, and the arguments unchanged. -/
theorem run : θ_run defs (onTc (τ := τ) (main (F := Ideal))) ⟨m, fun _ => 0, ρ⟩ (fun r => ∀ c : Dev nD,
      r.2.mem ((c.tc : Thread nD τ).loc main_v46_0) = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v46_1) = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W5_pos m ρ c), (h c).2.1.trans (W5_neg m ρ c), (h c).2.2⟩)
    (run_named (F := Ideal) m ρ)

end Cert.KernelIdeal.Stages

end
-- ==== Proof.lean ====
/-
  One mean-aggregation graph layer with edge scoring: the kernel against its plain reference, over the extended reals.

  Both programs compute, for node features x, weights W_self and W_neigh, bias b and edge lists (src, dst) and
  (neg_src, neg_dst):
      neigh = x · W_neigh,  agg[n] = Σ_{e : dst[e] = n} neigh[src[e]],  deg[n] = #{e : dst[e] = n},
      h = max((x · W_self + agg / max(deg, 1)) + b, 0),
      pos[e] = Σ_k h[src[e], k] · h[dst[e], k],   neg[e] = Σ_k h[neg_src[e], k] · h[neg_dst[e], k].
  The kernel does the two matrix products, the entrywise combine and the per-edge dot products in three launches
  tiled along the node or edge axis, and the gathers and scatter-adds between them by the same host operations as the
  reference. Read over the extended reals a change of float format is the identity and a matrix product accumulated
  into zero is the plain sum of products, so each launch leaves exactly the reference's array: the tiles of a
  row-wise computation are the row blocks of the whole one, and the blocks tile the array. The host operations in
  between are the reference's own, applied to equal arrays. No algebraic law beyond 0 + s = s is used, and the inputs'
  finiteness is not needed.

  The three frames: the two kernel programs' are the launch theorem over the three launches and two host stretches;
  the reference's is its run with the results dropped. The idealization rewrote nothing, so nothing is owed for it.
-/
import proofs.«122616_j54760833024622_1_alg».proof.Defs
import proofs.«122616_j54760833024622_1_alg».proof.Proof.Gen.Kernel
import proofs.«122616_j54760833024622_1_alg».proof.Proof.Gen.KernelIdeal
import proofs.«122616_j54760833024622_1_alg».proof.Proof.Gen.ReferenceIdeal
import proofs.«122616_j54760833024622_1_alg».proof.Proof.Gen.Pre_finite_inputs
import proofs.«122616_j54760833024622_1_alg».proof.Proof.KernelFrameP
import proofs.«122616_j54760833024622_1_alg».proof.Proof.KernelIdealFrameP
import proofs.«122616_j54760833024622_1_alg».proof.Proof.Gen.ReferenceIdeal.Run
import proofs.«122616_j54760833024622_1_alg».proof.Proof.Gen.ReferenceIdeal.Read
import proofs.«122616_j54760833024622_1_alg».proof.Proof.Stages
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_k : Cert.frame_Kernel := fun m ρ _ => Cert.Kernel.GenP.frame m ρ

/-- The idealized kernel runs and leaves its arguments as launched. -/
theorem frame_ki : Cert.frame_KernelIdeal := fun m ρ _ => Cert.KernelIdeal.GenP.frame m ρ

/-- The reference runs and leaves its arguments as launched: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the positive and the negative score columns at
    the reference's two score stages of the arguments. -/
theorem algebraic : Cert.algebraic_KernelIdeal_ReferenceIdeal := by
  intro m ρ m' ρ' _ hagree
  refine ⟨fun c => Cert.ReferenceIdeal.Read.val_main_v42 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.Read.val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Stages.run m ρ, ?_⟩
  refine (θ_run Cert.ReferenceIdeal.defs _ _).mono (fun _ h c => ?_) (Cert.ReferenceIdeal.Value.run (F := Ideal) m' ρ')
  obtain ⟨e0, e1, e2, e3, e4, e5, e6, e7⟩ := hagree c
  refine ⟨(h c).1.trans ?_, (h c).2.1.trans ?_, (h c).2.2⟩
  · rw [Cert.ReferenceIdeal.Read.val_main_v42_eq, e0, e1, e2, e3, e4, e5]
  · rw [Cert.ReferenceIdeal.Read.val_main_v59_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
